-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x128 : Shape := ⟨2, ![400, 128]⟩
abbrev S400x10000 : Shape := ⟨2, ![400, 10000]⟩
abbrev S1000x10000 : Shape := ⟨2, ![1000, 10000]⟩
abbrev S1000x128 : Shape := ⟨2, ![1000, 128]⟩

abbrev nBuf : Space → Nat
  | .hbm => 19
  | .vmem => 27
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S128x128, .bf16⟩
  | .hbm, ⟨12, _⟩ => ⟨S128x128, .bf16⟩
  | .hbm, ⟨13, _⟩ => ⟨S128x128, .bf16⟩
  | .hbm, ⟨14, _⟩ => ⟨S10000x128, .bf16⟩
  | .hbm, ⟨15, _⟩ => ⟨S10000x128, .bf16⟩
  | .hbm, ⟨16, _⟩ => ⟨S10000x10000, .bf16⟩
  | .hbm, ⟨17, _⟩ => ⟨S10000x128, .bf16⟩
  | .hbm, ⟨18, _⟩ => ⟨S10000x128, .f32⟩
  | .local _ .vmem, ⟨0, _⟩ => ⟨S400x128, .f32⟩
  | .local _ .vmem, ⟨1, _⟩ => ⟨S400x128, .f32⟩
  | .local _ .vmem, ⟨2, _⟩ => ⟨S128x128, .bf16⟩
  | .local _ .vmem, ⟨3, _⟩ => ⟨S1x128, .f32⟩
  | .local _ .vmem, ⟨4, _⟩ => ⟨S400x128, .bf16⟩
  | .local _ .vmem, ⟨5, _⟩ => ⟨S400x128, .bf16⟩
  | .local _ .vmem, ⟨6, _⟩ => ⟨S400x10000, .f32⟩
  | .local _ .vmem, ⟨7, _⟩ => ⟨S400x10000, .f32⟩
  | .local _ .vmem, ⟨8, _⟩ => ⟨S10000x128, .bf16⟩
  | .local _ .vmem, ⟨9, _⟩ => ⟨S128x128, .bf16⟩
  | .local _ .vmem, ⟨10, _⟩ => ⟨S1x128, .f32⟩
  | .local _ .vmem, ⟨11, _⟩ => ⟨S400x128, .bf16⟩
  | .local _ .vmem, ⟨12, _⟩ => ⟨S400x128, .bf16⟩
  | .local _ .vmem, ⟨13, _⟩ => ⟨S400x10000, .bf16⟩
  | .local _ .vmem, ⟨14, _⟩ => ⟨S400x10000, .bf16⟩
  | .local _ .vmem, ⟨15, _⟩ => ⟨S1000x10000, .bf16⟩
  | .local _ .vmem, ⟨16, _⟩ => ⟨S1000x10000, .bf16⟩
  | .local _ .vmem, ⟨17, _⟩ => ⟨S10000x128, .bf16⟩
  | .local _ .vmem, ⟨18, _⟩ => ⟨S128x128, .bf16⟩
  | .local _ .vmem, ⟨19, _⟩ => ⟨S1x128, .f32⟩
  | .local _ .vmem, ⟨20, _⟩ => ⟨S1000x128, .bf16⟩
  | .local _ .vmem, ⟨21, _⟩ => ⟨S1000x128, .bf16⟩
  | .local _ .vmem, ⟨22, _⟩ => ⟨S1000x10000, .bf16⟩
  | .local _ .vmem, ⟨23, _⟩ => ⟨S1000x10000, .bf16⟩
  | .local _ .vmem, ⟨24, _⟩ => ⟨S10000x128, .bf16⟩
  | .local _ .vmem, ⟨25, _⟩ => ⟨S1000x128, .f32⟩
  | .local _ .vmem, ⟨26, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  shapeCasts_S128_S1x128 : S128.ShapeCasts S1x128
  bitsLt_bf16_f32 : FTy.bits .bf16 < FTy.bits .f32
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  packedbf16_S400x128_S400x128_0_0 : (Rect.unit (s := S400x128) ![0, 0] S400x128.size inb_S400x128_S400x128_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  packedbf16_S1000x128_S1000x128_0_0 : (Rect.unit (s := S1000x128) ![0, 0] S1000x128.size inb_S1000x128_S1000x128_0_0).PackedRows (EltTy.packing .bf16)
  dot_S400x128_S128x128_S400x128_1_0_0_1_n_n_wf : DotDims.WF S400x128 S128x128 S400x128 [1] [0] [0] [1] [] []
  dot_S400x10000_S10000x128_S400x128_1_0_0_1_n_n_wf : DotDims.WF S400x10000 S10000x128 S400x128 [1] [0] [0] [1] [] []
  dot_S1000x10000_S10000x128_S1000x128_1_0_0_1_n_n_wf : DotDims.WF S1000x10000 S10000x128 S1000x128 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .bf16 = 32 ∨ (Rect.block (s := S10000x128) S400x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .bf16 = 32 ∨ (Rect.block (s := S10000x128) S400x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x10000.size a ≤ S10000x10000.size a
  hwx1_5 : ∀ i : grid1.Coords, EltTy.bits .bf16 = 32 ∨ (Rect.block (s := S10000x10000) S400x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x128.size a ≤ S10000x128.size a
  hwx2_4 : ∀ i : grid2.Coords, EltTy.bits .bf16 = 32 ∨ (Rect.block (s := S10000x128) S1000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x10000.size a ≤ S10000x10000.size a
  hwx3_0 : ∀ i : grid3.Coords, EltTy.bits .bf16 = 32 ∨ (Rect.block (s := S10000x10000) S1000x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x128.size a ≤ S10000x128.size a
  hwx3_2 : ∀ i : grid3.Coords, EltTy.bits .f32 = 32 ∨ (Rect.block (s := S10000x128) S1000x128.size (cc3_transform_2 i) (hinb3_2 i)).WholeWords (EltTy.packing .f32)

variable [Facts₀]

def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7_0) S400x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7_1) S400x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v7_1) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7_0) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v7_1) S1000x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v9) S1000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibRows.lean ====
/-
  Row-local linear algebra on the extended reals, over matrices given as functions of a rank-2 index.

  A dense layer applied to every row of a matrix is ROW-LOCAL: row `r` of `X · W + b` is a function of row `r` of
  `X` alone, and so is row `r` of `max (·) 0` and of `A · H` in its left factor `A`. Hence a horizontal band of
  rows of the result is the same operations applied to that band of the left operand: the statements
  `rowsMul_band`, `addRow_band`, `relu_band` below, all by unfolding. This is what lets a computation laid out
  band by band be read as one whole-matrix function.

  The second half reads the matrix unit's product into a zero accumulator, at the ideal instance, as `rowsMul`:
  the contraction's one axis is re-indexed by `Fin K` and the two operand indices are `(r, k)` and `(k, c)`.
-/
import Idealize.ShloMosaic.PureOps.Ideal.Laws
import Idealize.ShloMosaic.Lib.ValueIdx
import Idealize.ShloMosaic.Lib.Pipeline.Value

noncomputable section

namespace RowOps

open Idealize.ShloMosaic Idealize.ShloMosaic.ValueIdx

/-- The index shape of an `n × k` matrix. -/
abbrev Mat (n k : Nat) : Shape := ⟨2, ![n, k]⟩

/-- The product of an `n × K` matrix and a `K × C` matrix: entry `(r, c)` is `∑ k, L r k · M k c`. -/
def rowsMul {n K C : Nat} (L : (Mat n K).Idx → EReal) (M : (Mat K C).Idx → EReal) : (Mat n C).Idx → EReal :=
  fun i => ∑ k : Fin K, L (ix2 (n0 := n) (n1 := K) (i 0) k) * M (ix2 (n0 := K) (n1 := C) k (i 1))

/-- A row vector (a `1 × C` matrix) added to every row. -/
def addRow {n C : Nat} (Y : (Mat n C).Idx → EReal) (b : (Mat 1 C).Idx → EReal) : (Mat n C).Idx → EReal :=
  fun i => Y i + b (ix2 (n0 := 1) (n1 := C) 0 (i 1))

/-- The positive part, entry by entry. -/
def relu {n C : Nat} (Y : (Mat n C).Idx → EReal) : (Mat n C).Idx → EReal :=
  fun i => max (Y i) 0

/-- A vector of length `C` as a `1 × C` matrix. -/
def rowOf {C : Nat} (b : (⟨1, ![C]⟩ : Shape).Idx → EReal) : (Mat 1 C).Idx → EReal :=
  fun j => b (ix1 (n := C) (j 1))

/-- The band of `R` rows starting at row `off`. -/
def band {n K : Nat} (R off : Nat) (h : off + R ≤ n) (L : (Mat n K).Idx → EReal) : (Mat R K).Idx → EReal :=
  fun j => L (ix2 (n0 := n) (n1 := K) ⟨off + (j 0).val, by have := idx2_lt0 j; omega⟩ (j 1))

/-- A band of a product is the product of the band of the left factor. -/
theorem rowsMul_band {n K C : Nat} (R off : Nat) (h : off + R ≤ n) (L : (Mat n K).Idx → EReal) (M : (Mat K C).Idx → EReal) :
    band R off h (rowsMul L M) = rowsMul (band R off h L) M := rfl

/-- A band of a matrix with a row added to every row. -/
theorem addRow_band {n C : Nat} (R off : Nat) (h : off + R ≤ n) (Y : (Mat n C).Idx → EReal) (b : (Mat 1 C).Idx → EReal) :
    band R off h (addRow Y b) = addRow (band R off h Y) b := rfl

/-- A band of the positive part. -/
theorem relu_band {n C : Nat} (R off : Nat) (h : off + R ≤ n) (Y : (Mat n C).Idx → EReal) :
    band R off h (relu Y) = relu (band R off h Y) := rfl

/-- `![0, 0]` is the zero offset. -/
theorem zero_off2 : (![0, 0] : Fin 2 → Nat) = fun _ => 0 := funext fun a => by fin_cases a <;> rfl

/-- The matrix unit's product into the zero accumulator, at the ideal instance, for a plain `[R, K] × [K, C]` contraction
    (the four facts `l0 … r1` say which coordinate of which operand index is the row, the column and the contracted one):
    it is `rowsMul`. -/
theorem matmul_zero_eq_rowsMul {R K C : Nat} {φ₁ φ₂ : FTy}
    (d : DotDims (Mat R K) (Mat K C) (Mat R C)) (hr : d.contr.rank = 1) (hs : d.contr.size ⟨0, by omega⟩ = K)
    (l0 : ∀ (i : (Mat R C).Idx) (q : d.contr.Idx), (d.lhsIdx i q 0).val = (i 0).val)
    (l1 : ∀ (i : (Mat R C).Idx) (q : d.contr.Idx), (d.lhsIdx i q 1).val = (q ⟨0, by omega⟩).val)
    (r0 : ∀ (i : (Mat R C).Idx) (q : d.contr.Idx), (d.rhsIdx i q 0).val = (q ⟨0, by omega⟩).val)
    (r1 : ∀ (i : (Mat R C).Idx) (q : d.contr.Idx), (d.rhsIdx i q 1).val = (i 1).val)
    (prec : Option ContractPrecision) (lhs : FVec Ideal (Mat R K) φ₁) (rhs : FVec Ideal (Mat K C) φ₂) :
    matmul d prec lhs rhs (constant (F := Ideal) (Mat R C) .f32 0x00000000#32) = rowsMul lhs rhs := by
  funext i
  show FloatOps.matmul d prec lhs rhs (constant (Mat R C) .f32 0x00000000#32) i = _
  rw [Ideal.matmul_constant_zero_apply, ← Equiv.sum_comp (contrEquiv1 d K hr hs).symm]
  refine Finset.sum_congr rfl fun k _ => ?_
  have hk := contrEquiv1_symm_val d K hr hs k
  have el : d.lhsIdx i ((contrEquiv1 d K hr hs).symm k) = ix2 (n0 := R) (n1 := K) (i 0) k := funext fun a => Fin.ext (by
    match a with
    | ⟨0, _⟩ => exact l0 _ _
    | ⟨1, _⟩ => exact (l1 _ _).trans hk)
  have er : d.rhsIdx i ((contrEquiv1 d K hr hs).symm k) = ix2 (n0 := K) (n1 := C) k (i 1) := funext fun a => Fin.ext (by
    match a with
    | ⟨0, _⟩ => exact (r0 _ _).trans hk
    | ⟨1, _⟩ => exact r1 _ _)
  rw [el, er]

/-- The host's `dot_general`, at the ideal instance, for the same plain contraction: `rowsMul` again. -/
theorem dotGeneral_eq_rowsMul {R K C : Nat} {φ₁ φ₂ : FTy}
    (d : DotDims (Mat R K) (Mat K C) (Mat R C)) (hr : d.contr.rank = 1) (hs : d.contr.size ⟨0, by omega⟩ = K)
    (l0 : ∀ (i : (Mat R C).Idx) (q : d.contr.Idx), (d.lhsIdx i q 0).val = (i 0).val)
    (l1 : ∀ (i : (Mat R C).Idx) (q : d.contr.Idx), (d.lhsIdx i q 1).val = (q ⟨0, by omega⟩).val)
    (r0 : ∀ (i : (Mat R C).Idx) (q : d.contr.Idx), (d.rhsIdx i q 0).val = (q ⟨0, by omega⟩).val)
    (r1 : ∀ (i : (Mat R C).Idx) (q : d.contr.Idx), (d.rhsIdx i q 1).val = (i 1).val)
    (prec : Option ContractPrecision) (sched : HostSchedule) (lhs : FVec Ideal (Mat R K) φ₁) (rhs : FVec Ideal (Mat K C) φ₂) :
    FloatOps.dotGeneral d prec sched lhs rhs = rowsMul lhs rhs := by
  funext i
  rw [Ideal.dotGeneral_apply, ← Equiv.sum_comp (contrEquiv1 d K hr hs).symm]
  refine Finset.sum_congr rfl fun k _ => ?_
  have hk := contrEquiv1_symm_val d K hr hs k
  have el : d.lhsIdx i ((contrEquiv1 d K hr hs).symm k) = ix2 (n0 := R) (n1 := K) (i 0) k := funext fun a => Fin.ext (by
    match a with
    | ⟨0, _⟩ => exact l0 _ _
    | ⟨1, _⟩ => exact (l1 _ _).trans hk)
  have er : d.rhsIdx i ((contrEquiv1 d K hr hs).symm k) = ix2 (n0 := K) (n1 := C) k (i 1) := funext fun a => Fin.ext (by
    match a with
    | ⟨0, _⟩ => exact (r0 _ _).trans hk
    | ⟨1, _⟩ => exact r1 _ _)
  rw [el, er]

/-- A `1 × C` row broadcast to `R` rows, read at an index: the row's entry in that column. -/
theorem broadcastRow_apply {R C : Nat} {α : Type} (hC : C ≠ 1) (x : (Mat 1 C).Idx → α) (h : (Mat 1 C).Broadcasts (Mat R C))
    (j : (Mat R C).Idx) : broadcastTo (Mat R C) x h j = x (ix2 (n0 := 1) (n1 := C) 0 (j 1)) := by
  refine broadcastTo_apply x h j _ fun a => ?_
  match a with
  | ⟨0, _⟩ => show (0 : Nat) = if (1 : Nat) = 1 then 0 else _; rw [if_pos rfl]
  | ⟨1, _⟩ => show (j 1).val = if C = 1 then 0 else (j 1).val; rw [if_neg hC]

end RowOps

end
-- ==== Proof.Payloads.lean ====
/-
  The four kernel bodies' pure terms, at the ideal instance, as row operations.

  At the ideal instance a change of float format is the identity, a shape cast to the same shape is the identity,
  and the matrix unit's product into a zero accumulator is the plain sum of products. So:
    * the first kernel's stored block is  `x · w + b`                      (a band of 400 rows of x);
    * the second kernel stores its band of `a` unchanged, and              `max (a · h) 0 · w + b`;
    * the third kernel stores                                              `max (a · h) 0 · w + b`  (bands of 1000 rows);
    * the last kernel stores                                               `a · h`.
  Each is an equation between whole blocks (functions of the block index), proved entry by entry.
-/
import proofs.«124982_g24721831756232_cont_sun_m_69_35_alg».proof.Proof.Gen.KernelIdeal.Skeleton
import proofs.«124982_g24721831756232_cont_sun_m_69_35_alg».proof.Proof.LibRows

noncomputable section

namespace Cert.KernelIdeal.Vals

open Idealize.ShloMosaic Idealize.ShloMosaic.ValueIdx Cert.KernelIdeal Cert.KernelIdeal.Gen RowOps

/-! ## Which coordinate is which, for each of the four contractions -/

theorem d400x128_l0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem d400x128_l1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem d400x128_r0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem d400x128_r1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

theorem d400x10000_l0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem d400x10000_l1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem d400x10000_r0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem d400x10000_r1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

theorem d1000x10000_l0 (i : S1000x128.Idx) (q : dot_S1000x10000_S10000x128_S1000x128_1_0_0_1_n_n.contr.Idx) :
    (dot_S1000x10000_S10000x128_S1000x128_1_0_0_1_n_n.lhsIdx i q 0).val = (i 0).val := by
  unfold DotDims.lhsIdx
  rw [dif_neg (show ¬(0 : Fin S1000x10000.rank) ∈ dot_S1000x10000_S10000x128_S1000x128_1_0_0_1_n_n.lhsBatch by decide), dif_pos (show (0 : Fin S1000x10000.rank) ∈ dot_S1000x10000_S10000x128_S1000x128_1_0_0_1_n_n.lhsNonContracting by decide)]
  rfl
theorem d1000x10000_l1 (i : S1000x128.Idx) (q : dot_S1000x10000_S10000x128_S1000x128_1_0_0_1_n_n.contr.Idx) :
    (dot_S1000x10000_S10000x128_S1000x128_1_0_0_1_n_n.lhsIdx i q 1).val = (q ⟨0, by decide⟩).val :=
  dot_S1000x10000_S10000x128_S1000x128_1_0_0_1_n_n.lhsIdx_val_of_single rfl i q
theorem d1000x10000_r0 (i : S1000x128.Idx) (q : dot_S1000x10000_S10000x128_S1000x128_1_0_0_1_n_n.contr.Idx) :
    (dot_S1000x10000_S10000x128_S1000x128_1_0_0_1_n_n.rhsIdx i q 0).val = (q ⟨0, by decide⟩).val :=
  dot_S1000x10000_S10000x128_S1000x128_1_0_0_1_n_n.rhsIdx_val_of_single rfl i q
theorem d1000x10000_r1 (i : S1000x128.Idx) (q : dot_S1000x10000_S10000x128_S1000x128_1_0_0_1_n_n.contr.Idx) :
    (dot_S1000x10000_S10000x128_S1000x128_1_0_0_1_n_n.rhsIdx i q 1).val = (i 1).val := by
  unfold DotDims.rhsIdx
  rw [dif_neg (show ¬(1 : Fin S10000x128.rank) ∈ dot_S1000x10000_S10000x128_S1000x128_1_0_0_1_n_n.rhsBatch by decide), dif_pos (show (1 : Fin S10000x128.rank) ∈ dot_S1000x10000_S10000x128_S1000x128_1_0_0_1_n_n.rhsNonContracting by decide)]
  rfl

theorem d1000x128_l0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem d1000x128_l1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem d1000x128_r0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem d1000x128_r1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-! ## The four contractions as `rowsMul` -/

theorem mm400x128 (l : FVec Ideal S400x128 .bf16) (r : FVec Ideal S128x128 .bf16) :
    matmul dot_S400x128_S128x128_S400x128_1_0_0_1_n_n none l r (constant (F := Ideal) S400x128 .f32 0x00000000#32) = rowsMul (n := 400) (K := 128) (C := 128) l r :=
  matmul_zero_eq_rowsMul (R := 400) (K := 128) (C := 128) dot_S400x128_S128x128_S400x128_1_0_0_1_n_n rfl rfl d400x128_l0 d400x128_l1 d400x128_r0 d400x128_r1 none l r

theorem mm400x10000 (l : FVec Ideal S400x10000 .bf16) (r : FVec Ideal S10000x128 .bf16) :
    matmul dot_S400x10000_S10000x128_S400x128_1_0_0_1_n_n none l r (constant (F := Ideal) S400x128 .f32 0x00000000#32) = rowsMul (n := 400) (K := 10000) (C := 128) l r :=
  matmul_zero_eq_rowsMul (R := 400) (K := 10000) (C := 128) dot_S400x10000_S10000x128_S400x128_1_0_0_1_n_n rfl rfl d400x10000_l0 d400x10000_l1 d400x10000_r0 d400x10000_r1 none l r

theorem mm1000x10000 (l : FVec Ideal S1000x10000 .bf16) (r : FVec Ideal S10000x128 .bf16) :
    matmul dot_S1000x10000_S10000x128_S1000x128_1_0_0_1_n_n none l r (constant (F := Ideal) S1000x128 .f32 0x00000000#32) = rowsMul (n := 1000) (K := 10000) (C := 128) l r :=
  matmul_zero_eq_rowsMul (R := 1000) (K := 10000) (C := 128) dot_S1000x10000_S10000x128_S1000x128_1_0_0_1_n_n rfl rfl d1000x10000_l0 d1000x10000_l1 d1000x10000_r0 d1000x10000_r1 none l r

theorem mm1000x128 (l : FVec Ideal S1000x128 .bf16) (r : FVec Ideal S128x128 .bf16) :
    matmul dot_S1000x128_S128x128_S1000x128_1_0_0_1_n_n none l r (constant (F := Ideal) S1000x128 .f32 0x00000000#32) = rowsMul (n := 1000) (K := 128) (C := 128) l r :=
  matmul_zero_eq_rowsMul (R := 1000) (K := 128) (C := 128) dot_S1000x128_S128x128_S1000x128_1_0_0_1_n_n rfl rfl d1000x128_l0 d1000x128_l1 d1000x128_r0 d1000x128_r1 none l r

/-! ## The elementwise and layout steps, as whole-block equations -/

/-- Narrowing the float format is the identity on extended reals. -/
theorem truncf_id {s : Shape} (x : FVec Ideal s .f32) : truncf .bf16 x bitsLt_bf16_f32 = x := rfl

/-- The bias row broadcast down the block and added. -/
theorem addf_bcast {R : Nat} (y : FVec Ideal (Mat R 128) .f32) (b : FVec Ideal S1x128 .f32) (h : S1x128.Broadcasts (Mat R 128)) :
    addf y (broadcastTo (Mat R 128) b h) = addRow (n := R) (C := 128) y b := by
  funext j
  show y j + broadcastTo (Mat R 128) b h j = _
  rw [broadcastRow_apply (R := R) (C := 128) (by decide) b h j]
  rfl

/-- The maximum with the splat of the zero word is the positive part. -/
theorem max_zero {R : Nat} (y : FVec Ideal (Mat R 128) .f32) :
    maximumf y (broadcast (Mat R 128) (Scalar.ofBits (F := Ideal) .f32 0x00000000#32)) = relu (n := R) (C := 128) y := by
  funext j
  show max (y j) (Ideal.ofBits .f32 0x00000000#32) = max (y j) 0
  rw [Ideal.ofBits_zero_f32]

/-! ## The payloads -/

/-- The first kernel's stored block: the band of `x` times `w`, plus the bias row. -/
theorem pay0 (x : Vec Ideal S400x128 .f32) (w : Vec Ideal S128x128 .bf16) (b : Vec Ideal S1x128 .f32) :
    k0_pay1 (F := Ideal) x w b = addRow (n := 400) (C := 128) (rowsMul (n := 400) (K := 128) (C := 128) x w) b := by
  unfold k0_pay1
  simp only [shapeCast_self, truncf_id]
  rw [mm400x128, addf_bcast (R := 400)]

/-- The second kernel's copy of its band of `a`: unchanged. -/
theorem pay1_copy (a : Vec Ideal S400x10000 .f32) : k1_pay1 (F := Ideal) a = a := rfl

/-- The second kernel's layer block. -/
theorem pay1 (a : Vec Ideal S400x10000 .f32) (h : Vec Ideal S10000x128 .bf16) (w : Vec Ideal S128x128 .bf16) (b : Vec Ideal S1x128 .f32) :
    k1_pay2 (F := Ideal) a h w b
      = addRow (n := 400) (C := 128) (rowsMul (n := 400) (K := 128) (C := 128) (relu (n := 400) (C := 128) (rowsMul (n := 400) (K := 10000) (C := 128) a h)) w) b := by
  unfold k1_pay2
  simp only [shapeCast_self, truncf_id, pay1_copy]
  rw [mm400x10000, max_zero (R := 400), mm400x128, addf_bcast (R := 400)]

/-- The third kernel's layer block. -/
theorem pay2 (a : Vec Ideal S1000x10000 .bf16) (h : Vec Ideal S10000x128 .bf16) (w : Vec Ideal S128x128 .bf16) (b : Vec Ideal S1x128 .f32) :
    k2_pay1 (F := Ideal) a h w b
      = addRow (n := 1000) (C := 128) (rowsMul (n := 1000) (K := 128) (C := 128) (relu (n := 1000) (C := 128) (rowsMul (n := 1000) (K := 10000) (C := 128) a h)) w) b := by
  unfold k2_pay1
  simp only [shapeCast_self, truncf_id]
  rw [mm1000x10000, max_zero (R := 1000), mm1000x128, addf_bcast (R := 1000)]

/-- The last kernel's block: the band of `a` times `h`. -/
theorem pay3 (a : Vec Ideal S1000x10000 .bf16) (h : Vec Ideal S10000x128 .bf16) :
    k3_pay1 (F := Ideal) a h = rowsMul (n := 1000) (K := 10000) (C := 128) a h := by
  unfold k3_pay1
  simp only [shapeCast_self]
  rw [mm1000x10000]

end Cert.KernelIdeal.Vals

end
-- ==== Proof.Layers.lean ====
/-
  The function both programs compute: three stacked dense graph-convolution layers on the extended reals,

      out = a · (max (a · (max (a · (x·w₁ + b₁)) 0 · w₂ + b₂)) 0 · w₃ + b₃),

  with `a` the dense 10000 × 10000 adjacency, `x` the 10000 × 128 features, each `wᵢ` 128 × 128 and each `bᵢ` a
  vector of length 128 added to every row. Written over the row operations of `RowOps`, innermost first.
-/
import proofs.«124982_g24721831756232_cont_sun_m_69_35_alg».proof.Proof.LibRows

noncomputable section

namespace Gcn

open Idealize.ShloMosaic RowOps

/-- The features after the first dense map: `x · w₁ + b₁`. -/
def p1 (x : (Mat 10000 128).Idx → EReal) (w1 : (Mat 128 128).Idx → EReal) (b1 : (Mat 1 128).Idx → EReal) : (Mat 10000 128).Idx → EReal :=
  addRow (rowsMul x w1) b1

/-- One aggregate-activate-map step: `max (a · h) 0 · w + b`. -/
def step (a : (Mat 10000 10000).Idx → EReal) (h : (Mat 10000 128).Idx → EReal) (w : (Mat 128 128).Idx → EReal) (b : (Mat 1 128).Idx → EReal) :
    (Mat 10000 128).Idx → EReal :=
  addRow (rowsMul (relu (rowsMul a h)) w) b

/-- A band of rows of the first dense map is the map of that band of `x`. -/
theorem p1_band (R off : Nat) (h : off + R ≤ 10000) (x : (Mat 10000 128).Idx → EReal) (w1 : (Mat 128 128).Idx → EReal) (b1 : (Mat 1 128).Idx → EReal) :
    band R off h (p1 x w1 b1) = addRow (rowsMul (band R off h x) w1) b1 := rfl

/-- A band of rows of a step is the step's operations on that band of `a` (all of `h` is needed for any row). -/
theorem step_band (R off : Nat) (hle : off + R ≤ 10000) (a : (Mat 10000 10000).Idx → EReal) (h : (Mat 10000 128).Idx → EReal)
    (w : (Mat 128 128).Idx → EReal) (b : (Mat 1 128).Idx → EReal) :
    band R off hle (step a h w b) = addRow (rowsMul (relu (rowsMul (band R off hle a) h)) w) b := rfl

/-- The three layers, the bias vectors given as `1 × 128` rows. -/
def layers (x : (Mat 10000 128).Idx → EReal) (a : (Mat 10000 10000).Idx → EReal)
    (w1 : (Mat 128 128).Idx → EReal) (b1 : (Mat 1 128).Idx → EReal) (w2 : (Mat 128 128).Idx → EReal) (b2 : (Mat 1 128).Idx → EReal)
    (w3 : (Mat 128 128).Idx → EReal) (b3 : (Mat 1 128).Idx → EReal) : (Mat 10000 128).Idx → EReal :=
  rowsMul a (step a (step a (p1 x w1 b1) w2 b2) w3 b3)

end Gcn

end
-- ==== Proof.Region0.lean ====
/-
  The first dense map, read as a value: whatever the buffers hold when the first kernel region is entered, it leaves
  its output array at  `x · w + b`  (`Gcn.p1`), `x` the whole 10000 × 128 feature matrix.

  The region walks 25 bands of 400 rows; at band `t` the body sees rows `400 t … 400 t + 399` of `x`, all of `w` and the
  bias row, and writes back those rows of the result. The map is row-local, so each write-back is that band of one
  whole-matrix function, and the 25 bands tile the rows.
-/
import proofs.«124982_g24721831756232_cont_sun_m_69_35_alg».proof.Proof.Gen.KernelIdeal.Frame
import proofs.«124982_g24721831756232_cont_sun_m_69_35_alg».proof.Proof.Payloads
import proofs.«124982_g24721831756232_cont_sun_m_69_35_alg».proof.Proof.Layers
set_option maxRecDepth 16384

noncomputable section

namespace Cert.KernelIdeal.Vals

open Idealize.ShloMosaic Idealize.ShloMosaic.TcCoe Idealize.ShloMosaic.ValueIdx Idealize.SL.Sem
open Idealize.ShloMosaic.Pipeline (Dat)
open Cert.KernelIdeal Cert.KernelIdeal.Gen RowOps

-- the buffer contents when the region is entered: a parameter, as in the generated frame
variable (V : (c : Dev nD) → (b : Ref sig .tc) → Buf (Elt Ideal) ((c : Thread nD τ).loc b))

/-- The region's three input arrays at their literal types. -/
abbrev x0 (c : Dev nD) : Vec Ideal S10000x128 .f32 := V c main_arg0
abbrev w0 (c : Dev nD) : Vec Ideal S128x128 .bf16 := V c main_v3
abbrev b0 (c : Dev nD) : Vec Ideal S1x128 .f32 := V c main_v0

/-- What the region leaves in its output array. -/
abbrev G0 (c : Dev nD) : Vec Ideal S10000x128 .bf16 := Gcn.p1 (x0 V c) (w0 V c) (b0 V c)

/-- The printed index maps over the 25 points: the band index is the point, everything else block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Band `t` lies inside the 10000 rows. -/
theorem band_le0 (t : Fin cfg0.N) : t.val * 400 + 400 ≤ 10000 := by
  have h : t.val < 25 := Nat.lt_of_lt_of_eq t.isLt N_0
  omega

/-- Window 0's block at point `t` is band `t` of `x`. -/
theorem blk0_x (c : Dev nD) (t : Fin cfg0.N) :
    iblk0 V c 0 t = band (n := 10000) (K := 128) 400 (t.val * 400) (band_le0 t) (x0 V c) := by
  obtain ⟨e0, e1, e2, e3, e4, e5, e6, e7⟩ := idx_facts0 t
  funext j
  show x0 V c (((cfg0.win 0).blk t).view.emb j) = band (n := 10000) (K := 128) 400 (t.val * 400) (band_le0 t) (x0 V c) j
  refine congrArg (x0 V c) (funext fun a => Fin.ext ?_)
  match a with
  | ⟨0, _⟩ => show win0_0.index t (0 : Fin 2) * 400 + 1 * (j 0).val = t.val * 400 + (j 0).val; omega
  | ⟨1, _⟩ => show win0_0.index t (1 : Fin 2) * 128 + 1 * (j 1).val = (j 1).val; omega

/-- Window 1's block at every point is all of `w`. -/
theorem blk0_w (c : Dev nD) (t : Fin cfg0.N) : iblk0 V c 1 t = w0 V c := by
  obtain ⟨e0, e1, e2, e3, e4, e5, e6, e7⟩ := idx_facts0 t
  funext j
  show w0 V c (((cfg0.win 1).blk t).view.emb j) = w0 V c j
  refine congrArg (w0 V c) (funext fun a => Fin.ext ?_)
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- Window 2's block at every point is the bias row. -/
theorem blk0_b (c : Dev nD) (t : Fin cfg0.N) : iblk0 V c 2 t = b0 V c := by
  obtain ⟨e0, e1, e2, e3, e4, e5, e6, e7⟩ := idx_facts0 t
  funext j
  show b0 V c (((cfg0.win 2).blk t).view.emb j) = b0 V c j
  refine congrArg (b0 V c) (funext fun a => Fin.ext ?_)
  match a with
  | ⟨0, _⟩ => show win0_2.index t (0 : Fin 2) * 1 + 1 * (j 0).val = (j 0).val; omega
  | ⟨1, _⟩ => show win0_2.index t (1 : Fin 2) * 128 + 1 * (j 1).val = (j 1).val; omega

/-- Any whole output array read through window 3's block at point `t` is its band `t`. -/
theorem read0_out (t : Fin cfg0.N) (G : Vec Ideal S10000x128 .bf16) :
    ((cfg0.win 3).blk t).view.read (Elt Ideal) G = band (n := 10000) (K := 128) 400 (t.val * 400) (band_le0 t) G := by
  obtain ⟨e0, e1, e2, e3, e4, e5, e6, e7⟩ := idx_facts0 t
  funext j
  show G (((cfg0.win 3).blk t).view.emb j) = band (n := 10000) (K := 128) 400 (t.val * 400) (band_le0 t) G j
  refine congrArg G (funext fun a => Fin.ext ?_)
  match a with
  | ⟨0, _⟩ => show win0_3.index t (0 : Fin 2) * 400 + 1 * (j 0).val = t.val * 400 + (j 0).val; omega
  | ⟨1, _⟩ => show win0_3.index t (1 : Fin 2) * 128 + 1 * (j 1).val = (j 1).val; omega

/-- What point `t` writes back is band `t` of `G0`. -/
theorem flushed0 (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero zero_off2]
  simp only [View.ld_unit_zero (S := S400x128) zero_off2, View.ld_unit_zero (S := S128x128) zero_off2, View.ld_unit_zero (S := S1x128) zero_off2]
  rw [pay0, blk0_x, blk0_w, blk0_b, read0_out]
  exact (Gcn.p1_band 400 (t.val * 400) (band_le0 t) (x0 V c) (w0 V c) (b0 V c)).symm

/-- An index of the output array is in point `t`'s band iff each coordinate is in the band's range. -/
theorem mem_blk0 (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v6).slice (win0_3.rect t)).set ↔ _
  rw [View.set_slice_whole, Rect.mem_set_unit]
  exact Iff.rfl

/-- Every row is in some band: row `r` in band `r / 400`. -/
theorem cover0 (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hN : (i 0).val / 400 < cfg0.N := by rw [show cfg0.N = 25 from N_0]; omega
  obtain ⟨e0, e1, e2, e3, e4, e5, e6, e7⟩ := idx_facts0 ⟨(i 0).val / 400, hN⟩
  refine ⟨⟨(i 0).val / 400, hN⟩, flush0_3 _, ?_⟩
  rw [mem_blk0]
  intro a
  match a with
  | ⟨0, _⟩ => show win0_3.index ⟨(i 0).val / 400, hN⟩ (0 : Fin 2) * 400 ≤ (i 0).val ∧ (i 0).val < win0_3.index ⟨(i 0).val / 400, hN⟩ (0 : Fin 2) * 400 + 400; rw [e6]; show (i 0).val / 400 * 400 ≤ (i 0).val ∧ (i 0).val < (i 0).val / 400 * 400 + 400; omega
  | ⟨1, _⟩ => show win0_3.index ⟨(i 0).val / 400, hN⟩ (1 : Fin 2) * 128 ≤ (i 1).val ∧ (i 1).val < win0_3.index ⟨(i 0).val / 400, hN⟩ (1 : Fin 2) * 128 + 128; omega

/-- The output array after the region: `x · w + b`. -/
theorem final0 (c : Dev nD) : (dat0 V c).arrAt 3 cfg0.N = G0 V c :=
  (dat0 V c).arrAt_eq_of_cover 3 (G0 V c) (fun t _ => flushed0 V c t) cover0

end Cert.KernelIdeal.Vals

end
-- ==== Proof.Region1.lean ====
/-
  The second kernel region, read as a value. Whatever the buffers hold when it is entered, it leaves
    * its first output array at  `max (a · h) 0 · w + b`  (`Gcn.step`), and
    * its second output array at `a` itself: the copy of the adjacency in the narrower float format, which on the
      extended reals is the same matrix.

  The region walks 25 bands of 400 rows; at band `t` the body sees rows `400 t … 400 t + 399` of `a`, all of `h`, all of
  `w` and the bias row. Both results are row-local in `a`, so each write-back is that band of one whole-matrix function,
  and the 25 bands tile the rows of each output.
-/
import proofs.«124982_g24721831756232_cont_sun_m_69_35_alg».proof.Proof.Gen.KernelIdeal.Frame
import proofs.«124982_g24721831756232_cont_sun_m_69_35_alg».proof.Proof.Payloads
import proofs.«124982_g24721831756232_cont_sun_m_69_35_alg».proof.Proof.Layers
set_option maxRecDepth 16384

noncomputable section

namespace Cert.KernelIdeal.Vals

open Idealize.ShloMosaic Idealize.ShloMosaic.TcCoe Idealize.ShloMosaic.ValueIdx Idealize.SL.Sem
open Idealize.ShloMosaic.Pipeline (Dat)
open Cert.KernelIdeal Cert.KernelIdeal.Gen RowOps

-- the buffer contents when the region is entered: a parameter, as in the generated frame
variable (V : (c : Dev nD) → (b : Ref sig .tc) → Buf (Elt Ideal) ((c : Thread nD τ).loc b))

/-- The region's four input arrays at their literal types. -/
abbrev a1 (c : Dev nD) : Vec Ideal S10000x10000 .f32 := V c main_arg1
abbrev h1 (c : Dev nD) : Vec Ideal S10000x128 .bf16 := V c main_v6
abbrev w1 (c : Dev nD) : Vec Ideal S128x128 .bf16 := V c main_v4
abbrev b1 (c : Dev nD) : Vec Ideal S1x128 .f32 := V c main_v1

/-- What the region leaves in its first output array. -/
abbrev G1 (c : Dev nD) : Vec Ideal S10000x128 .bf16 := Gcn.step (a1 V c) (h1 V c) (w1 V c) (b1 V c)
/-- What the region leaves in its second output array: `a`, at the narrower format's type. -/
abbrev A1 (c : Dev nD) : Vec Ideal S10000x10000 .bf16 := V c main_arg1

/-- The printed index maps over the 25 points: the band index is the point, everything else block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Band `t` lies inside the 10000 rows. -/
theorem band_le1 (t : Fin cfg1.N) : t.val * 400 + 400 ≤ 10000 := by
  have h : t.val < 25 := Nat.lt_of_lt_of_eq t.isLt N_1
  omega

/-- Window 0's block at point `t` is band `t` of `a`. -/
theorem blk1_a (c : Dev nD) (t : Fin cfg1.N) :
    iblk1 V c 0 t = band (n := 10000) (K := 10000) 400 (t.val * 400) (band_le1 t) (a1 V c) := by
  obtain ⟨e0, e1, e2, e3, e4, e5, e6, e7, e8, e9, e10, e11⟩ := idx_facts1 t
  funext j
  show a1 V c (((cfg1.win 0).blk t).view.emb j) = band (n := 10000) (K := 10000) 400 (t.val * 400) (band_le1 t) (a1 V c) j
  refine congrArg (a1 V c) (funext fun a => Fin.ext ?_)
  match a with
  | ⟨0, _⟩ => show win1_0.index t (0 : Fin 2) * 400 + 1 * (j 0).val = t.val * 400 + (j 0).val; omega
  | ⟨1, _⟩ => show win1_0.index t (1 : Fin 2) * 10000 + 1 * (j 1).val = (j 1).val; omega

/-- Window 1's block at every point is all of `h`. -/
theorem blk1_h (c : Dev nD) (t : Fin cfg1.N) : iblk1 V c 1 t = h1 V c := by
  obtain ⟨e0, e1, e2, e3, e4, e5, e6, e7, e8, e9, e10, e11⟩ := idx_facts1 t
  funext j
  show h1 V c (((cfg1.win 1).blk t).view.emb j) = h1 V c j
  refine congrArg (h1 V c) (funext fun a => Fin.ext ?_)
  match a with
  | ⟨0, _⟩ => show win1_1.index t (0 : Fin 2) * 10000 + 1 * (j 0).val = (j 0).val; omega
  | ⟨1, _⟩ => show win1_1.index t (1 : Fin 2) * 128 + 1 * (j 1).val = (j 1).val; omega

/-- Window 2's block at every point is all of `w`. -/
theorem blk1_w (c : Dev nD) (t : Fin cfg1.N) : iblk1 V c 2 t = w1 V c := by
  obtain ⟨e0, e1, e2, e3, e4, e5, e6, e7, e8, e9, e10, e11⟩ := idx_facts1 t
  funext j
  show w1 V c (((cfg1.win 2).blk t).view.emb j) = w1 V c j
  refine congrArg (w1 V c) (funext fun a => Fin.ext ?_)
  match a with
  | ⟨0, _⟩ => show win1_2.index t (0 : Fin 2) * 128 + 1 * (j 0).val = (j 0).val; omega
  | ⟨1, _⟩ => show win1_2.index t (1 : Fin 2) * 128 + 1 * (j 1).val = (j 1).val; omega

/-- Window 3's block at every point is the bias row. -/
theorem blk1_b (c : Dev nD) (t : Fin cfg1.N) : iblk1 V c 3 t = b1 V c := by
  obtain ⟨e0, e1, e2, e3, e4, e5, e6, e7, e8, e9, e10, e11⟩ := idx_facts1 t
  funext j
  show b1 V c (((cfg1.win 3).blk t).view.emb j) = b1 V c j
  refine congrArg (b1 V c) (funext fun a => Fin.ext ?_)
  match a with
  | ⟨0, _⟩ => show win1_3.index t (0 : Fin 2) * 1 + 1 * (j 0).val = (j 0).val; omega
  | ⟨1, _⟩ => show win1_3.index t (1 : Fin 2) * 128 + 1 * (j 1).val = (j 1).val; omega

/-- Any whole first-output array read through window 4's block at point `t` is its band `t`. -/
theorem read1_out4 (t : Fin cfg1.N) (G : Vec Ideal S10000x128 .bf16) :
    ((cfg1.win 4).blk t).view.read (Elt Ideal) G = band (n := 10000) (K := 128) 400 (t.val * 400) (band_le1 t) G := by
  obtain ⟨e0, e1, e2, e3, e4, e5, e6, e7, e8, e9, e10, e11⟩ := idx_facts1 t
  funext j
  show G (((cfg1.win 4).blk t).view.emb j) = band (n := 10000) (K := 128) 400 (t.val * 400) (band_le1 t) G j
  refine congrArg G (funext fun a => Fin.ext ?_)
  match a with
  | ⟨0, _⟩ => show win1_4.index t (0 : Fin 2) * 400 + 1 * (j 0).val = t.val * 400 + (j 0).val; omega
  | ⟨1, _⟩ => show win1_4.index t (1 : Fin 2) * 128 + 1 * (j 1).val = (j 1).val; omega

/-- Any whole second-output array read through window 5's block at point `t` is its band `t`. -/
theorem read1_out5 (t : Fin cfg1.N) (G : Vec Ideal S10000x10000 .bf16) :
    ((cfg1.win 5).blk t).view.read (Elt Ideal) G = band (n := 10000) (K := 10000) 400 (t.val * 400) (band_le1 t) G := by
  obtain ⟨e0, e1, e2, e3, e4, e5, e6, e7, e8, e9, e10, e11⟩ := idx_facts1 t
  funext j
  show G (((cfg1.win 5).blk t).view.emb j) = band (n := 10000) (K := 10000) 400 (t.val * 400) (band_le1 t) G j
  refine congrArg G (funext fun a => Fin.ext ?_)
  match a with
  | ⟨0, _⟩ => show win1_5.index t (0 : Fin 2) * 400 + 1 * (j 0).val = t.val * 400 + (j 0).val; omega
  | ⟨1, _⟩ => show win1_5.index t (1 : Fin 2) * 10000 + 1 * (j 1).val = (j 1).val; omega

/-- What point `t` writes back to the first output is band `t` of `G1`. -/
theorem flushed1_4 (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero zero_off2]
  simp only [View.ld_unit_zero (S := S400x10000) zero_off2, View.ld_unit_zero (S := S10000x128) zero_off2, View.ld_unit_zero (S := S128x128) zero_off2, View.ld_unit_zero (S := S1x128) zero_off2]
  rw [pay1, blk1_a, blk1_h, blk1_w, blk1_b, read1_out4]
  exact (Gcn.step_band 400 (t.val * 400) (band_le1 t) (a1 V c) (h1 V c) (w1 V c) (b1 V c)).symm

/-- What point `t` writes back to the second output is band `t` of `a`. -/
theorem flushed1_5 (c : Dev nD) (t : Fin cfg1.N) :
    (dat1 V c).flushed 5 t = ((cfg1.win 5).blk t).view.read (Elt Ideal) (A1 V c) := by
  show (cfg1.win 5).cut (grid1.coords t) ((dat1 V c).after 5 t) = _
  rw [after1_5]
  unfold out1_5
  rw [View.canon_unit_zero zero_off2]
  simp only [View.ld_unit_zero (S := S400x10000) zero_off2]
  rw [pay1_copy, blk1_a, read1_out5]
  rfl

/-- An index of the first output array is in point `t`'s band iff each coordinate is in the band's range. -/
theorem mem_blk1_4 (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_v7_0).slice (win1_4.rect t)).set ↔ _
  rw [View.set_slice_whole, Rect.mem_set_unit]
  exact Iff.rfl

/-- The same for the second output array. -/
theorem mem_blk1_5 (t : Fin cfg1.N) (i : S10000x10000.Idx) :
    i ∈ ((cfg1.win 5).blk t).view.set ↔ ∀ a : Fin 2, win1_5.index t a * S400x10000.size a ≤ (i a).val ∧ (i a).val < win1_5.index t a * S400x10000.size a + S400x10000.size a := by
  show i ∈ ((View.whole main_v7_1).slice (win1_5.rect t)).set ↔ _
  rw [View.set_slice_whole, Rect.mem_set_unit]
  exact Iff.rfl

/-- Every row of the first output is in some band: row `r` in band `r / 400`. -/
theorem cover1_4 (i : S10000x128.Idx) : ∃ t : Fin cfg1.N, (cfg1.win 4).flush t = true ∧ i ∈ ((cfg1.win 4).blk t).view.set := by
  have hi0 : (i 0).val < 10000 := (i 0).isLt
  have hi1 : (i 1).val < 128 := (i 1).isLt
  have hN : (i 0).val / 400 < cfg1.N := by rw [show cfg1.N = 25 from N_1]; omega
  obtain ⟨e0, e1, e2, e3, e4, e5, e6, e7, e8, e9, e10, e11⟩ := idx_facts1 ⟨(i 0).val / 400, hN⟩
  refine ⟨⟨(i 0).val / 400, hN⟩, flush1_4 _, ?_⟩
  rw [mem_blk1_4]
  intro a
  match a with
  | ⟨0, _⟩ => show win1_4.index ⟨(i 0).val / 400, hN⟩ (0 : Fin 2) * 400 ≤ (i 0).val ∧ (i 0).val < win1_4.index ⟨(i 0).val / 400, hN⟩ (0 : Fin 2) * 400 + 400; rw [e8]; show (i 0).val / 400 * 400 ≤ (i 0).val ∧ (i 0).val < (i 0).val / 400 * 400 + 400; omega
  | ⟨1, _⟩ => show win1_4.index ⟨(i 0).val / 400, hN⟩ (1 : Fin 2) * 128 ≤ (i 1).val ∧ (i 1).val < win1_4.index ⟨(i 0).val / 400, hN⟩ (1 : Fin 2) * 128 + 128; omega

/-- Every row of the second output is in some band. -/
theorem cover1_5 (i : S10000x10000.Idx) : ∃ t : Fin cfg1.N, (cfg1.win 5).flush t = true ∧ i ∈ ((cfg1.win 5).blk t).view.set := by
  have hi0 : (i 0).val < 10000 := (i 0).isLt
  have hi1 : (i 1).val < 10000 := (i 1).isLt
  have hN : (i 0).val / 400 < cfg1.N := by rw [show cfg1.N = 25 from N_1]; omega
  obtain ⟨e0, e1, e2, e3, e4, e5, e6, e7, e8, e9, e10, e11⟩ := idx_facts1 ⟨(i 0).val / 400, hN⟩
  refine ⟨⟨(i 0).val / 400, hN⟩, flush1_5 _, ?_⟩
  rw [mem_blk1_5]
  intro a
  match a with
  | ⟨0, _⟩ => show win1_5.index ⟨(i 0).val / 400, hN⟩ (0 : Fin 2) * 400 ≤ (i 0).val ∧ (i 0).val < win1_5.index ⟨(i 0).val / 400, hN⟩ (0 : Fin 2) * 400 + 400; rw [e10]; show (i 0).val / 400 * 400 ≤ (i 0).val ∧ (i 0).val < (i 0).val / 400 * 400 + 400; omega
  | ⟨1, _⟩ => show win1_5.index ⟨(i 0).val / 400, hN⟩ (1 : Fin 2) * 10000 ≤ (i 1).val ∧ (i 1).val < win1_5.index ⟨(i 0).val / 400, hN⟩ (1 : Fin 2) * 10000 + 10000; omega

/-- The first output array after the region: the step. -/
theorem final1_4 (c : Dev nD) : (dat1 V c).arrAt 4 cfg1.N = G1 V c :=
  (dat1 V c).arrAt_eq_of_cover 4 (G1 V c) (fun t _ => flushed1_4 V c t) cover1_4

/-- The second output array after the region: `a`. -/
theorem final1_5 (c : Dev nD) : (dat1 V c).arrAt 5 cfg1.N = A1 V c :=
  (dat1 V c).arrAt_eq_of_cover 5 (A1 V c) (fun t _ => flushed1_5 V c t) cover1_5

end Cert.KernelIdeal.Vals

end
-- ==== Proof.Region2.lean ====
/-
  The third kernel region, read as a value: whatever the buffers hold when it is entered, it leaves its output array
  at  `max (a · h) 0 · w + b`  (`Gcn.step`).

  The region walks ten bands of 1000 rows; at band `t` the body sees rows `1000 t … 1000 t + 999` of `a`, all of `h`, all
  of `w` and the bias row. The step is row-local in `a`, so each write-back is that band of one whole-matrix function,
  and the ten bands tile the rows.
-/
import proofs.«124982_g24721831756232_cont_sun_m_69_35_alg».proof.Proof.Gen.KernelIdeal.Frame
import proofs.«124982_g24721831756232_cont_sun_m_69_35_alg».proof.Proof.Payloads
import proofs.«124982_g24721831756232_cont_sun_m_69_35_alg».proof.Proof.Layers
set_option maxRecDepth 16384

noncomputable section

namespace Cert.KernelIdeal.Vals

open Idealize.ShloMosaic Idealize.ShloMosaic.TcCoe Idealize.ShloMosaic.ValueIdx Idealize.SL.Sem
open Idealize.ShloMosaic.Pipeline (Dat)
open Cert.KernelIdeal Cert.KernelIdeal.Gen RowOps

-- the buffer contents when the region is entered: a parameter, as in the generated frame
variable (V : (c : Dev nD) → (b : Ref sig .tc) → Buf (Elt Ideal) ((c : Thread nD τ).loc b))

/-- The region's four input arrays at their literal types. -/
abbrev a2 (c : Dev nD) : Vec Ideal S10000x10000 .bf16 := V c main_v7_1
abbrev h2 (c : Dev nD) : Vec Ideal S10000x128 .bf16 := V c main_v7_0
abbrev w2 (c : Dev nD) : Vec Ideal S128x128 .bf16 := V c main_v5
abbrev b2 (c : Dev nD) : Vec Ideal S1x128 .f32 := V c main_v2

/-- What the region leaves in its output array. -/
abbrev G2 (c : Dev nD) : Vec Ideal S10000x128 .bf16 := Gcn.step (a2 V c) (h2 V c) (w2 V c) (b2 V c)

/-- The printed index maps over the ten points: the band index is the point, everything else block 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Band `t` lies inside the 10000 rows. -/
theorem band_le2 (t : Fin cfg2.N) : t.val * 1000 + 1000 ≤ 10000 := by
  have h : t.val < 10 := Nat.lt_of_lt_of_eq t.isLt N_2
  omega

/-- Window 0's block at point `t` is band `t` of `a`. -/
theorem blk2_a (c : Dev nD) (t : Fin cfg2.N) :
    iblk2 V c 0 t = band (n := 10000) (K := 10000) 1000 (t.val * 1000) (band_le2 t) (a2 V c) := by
  obtain ⟨e0, e1, e2, e3, e4, e5, e6, e7, e8, e9⟩ := idx_facts2 t
  funext j
  show a2 V c (((cfg2.win 0).blk t).view.emb j) = band (n := 10000) (K := 10000) 1000 (t.val * 1000) (band_le2 t) (a2 V c) j
  refine congrArg (a2 V c) (funext fun a => Fin.ext ?_)
  match a with
  | ⟨0, _⟩ => show win2_0.index t (0 : Fin 2) * 1000 + 1 * (j 0).val = t.val * 1000 + (j 0).val; omega
  | ⟨1, _⟩ => show win2_0.index t (1 : Fin 2) * 10000 + 1 * (j 1).val = (j 1).val; omega

/-- Window 1's block at every point is all of `h`. -/
theorem blk2_h (c : Dev nD) (t : Fin cfg2.N) : iblk2 V c 1 t = h2 V c := by
  obtain ⟨e0, e1, e2, e3, e4, e5, e6, e7, e8, e9⟩ := idx_facts2 t
  funext j
  show h2 V c (((cfg2.win 1).blk t).view.emb j) = h2 V c j
  refine congrArg (h2 V c) (funext fun a => Fin.ext ?_)
  match a with
  | ⟨0, _⟩ => show win2_1.index t (0 : Fin 2) * 10000 + 1 * (j 0).val = (j 0).val; omega
  | ⟨1, _⟩ => show win2_1.index t (1 : Fin 2) * 128 + 1 * (j 1).val = (j 1).val; omega

/-- Window 2's block at every point is all of `w`. -/
theorem blk2_w (c : Dev nD) (t : Fin cfg2.N) : iblk2 V c 2 t = w2 V c := by
  obtain ⟨e0, e1, e2, e3, e4, e5, e6, e7, e8, e9⟩ := idx_facts2 t
  funext j
  show w2 V c (((cfg2.win 2).blk t).view.emb j) = w2 V c j
  refine congrArg (w2 V c) (funext fun a => Fin.ext ?_)
  match a with
  | ⟨0, _⟩ => show win2_2.index t (0 : Fin 2) * 128 + 1 * (j 0).val = (j 0).val; omega
  | ⟨1, _⟩ => show win2_2.index t (1 : Fin 2) * 128 + 1 * (j 1).val = (j 1).val; omega

/-- Window 3's block at every point is the bias row. -/
theorem blk2_b (c : Dev nD) (t : Fin cfg2.N) : iblk2 V c 3 t = b2 V c := by
  obtain ⟨e0, e1, e2, e3, e4, e5, e6, e7, e8, e9⟩ := idx_facts2 t
  funext j
  show b2 V c (((cfg2.win 3).blk t).view.emb j) = b2 V c j
  refine congrArg (b2 V c) (funext fun a => Fin.ext ?_)
  match a with
  | ⟨0, _⟩ => show win2_3.index t (0 : Fin 2) * 1 + 1 * (j 0).val = (j 0).val; omega
  | ⟨1, _⟩ => show win2_3.index t (1 : Fin 2) * 128 + 1 * (j 1).val = (j 1).val; omega

/-- Any whole output array read through window 4's block at point `t` is its band `t`. -/
theorem read2_out (t : Fin cfg2.N) (G : Vec Ideal S10000x128 .bf16) :
    ((cfg2.win 4).blk t).view.read (Elt Ideal) G = band (n := 10000) (K := 128) 1000 (t.val * 1000) (band_le2 t) G := by
  obtain ⟨e0, e1, e2, e3, e4, e5, e6, e7, e8, e9⟩ := idx_facts2 t
  funext j
  show G (((cfg2.win 4).blk t).view.emb j) = band (n := 10000) (K := 128) 1000 (t.val * 1000) (band_le2 t) G j
  refine congrArg G (funext fun a => Fin.ext ?_)
  match a with
  | ⟨0, _⟩ => show win2_4.index t (0 : Fin 2) * 1000 + 1 * (j 0).val = t.val * 1000 + (j 0).val; omega
  | ⟨1, _⟩ => show win2_4.index t (1 : Fin 2) * 128 + 1 * (j 1).val = (j 1).val; omega

/-- What point `t` writes back is band `t` of `G2`. -/
theorem flushed2 (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4]
  unfold out2_4
  rw [View.canon_unit_zero zero_off2]
  simp only [View.ld_unit_zero (S := S1000x10000) zero_off2, View.ld_unit_zero (S := S10000x128) zero_off2, View.ld_unit_zero (S := S128x128) zero_off2, View.ld_unit_zero (S := S1x128) zero_off2]
  rw [pay2, blk2_a, blk2_h, blk2_w, blk2_b, read2_out]
  exact (Gcn.step_band 1000 (t.val * 1000) (band_le2 t) (a2 V c) (h2 V c) (w2 V c) (b2 V c)).symm

/-- An index of the output array is in point `t`'s band iff each coordinate is in the band's range. -/
theorem mem_blk2 (t : Fin cfg2.N) (i : S10000x128.Idx) :
    i ∈ ((cfg2.win 4).blk t).view.set ↔ ∀ a : Fin 2, win2_4.index t a * S1000x128.size a ≤ (i a).val ∧ (i a).val < win2_4.index t a * S1000x128.size a + S1000x128.size a := by
  show i ∈ ((View.whole main_v8).slice (win2_4.rect t)).set ↔ _
  rw [View.set_slice_whole, Rect.mem_set_unit]
  exact Iff.rfl

/-- Every row is in some band: row `r` in band `r / 1000`. -/
theorem cover2 (i : S10000x128.Idx) : ∃ t : Fin cfg2.N, (cfg2.win 4).flush t = true ∧ i ∈ ((cfg2.win 4).blk t).view.set := by
  have hi0 : (i 0).val < 10000 := (i 0).isLt
  have hi1 : (i 1).val < 128 := (i 1).isLt
  have hN : (i 0).val / 1000 < cfg2.N := by rw [show cfg2.N = 10 from N_2]; omega
  obtain ⟨e0, e1, e2, e3, e4, e5, e6, e7, e8, e9⟩ := idx_facts2 ⟨(i 0).val / 1000, hN⟩
  refine ⟨⟨(i 0).val / 1000, hN⟩, flush2_4 _, ?_⟩
  rw [mem_blk2]
  intro a
  match a with
  | ⟨0, _⟩ => show win2_4.index ⟨(i 0).val / 1000, hN⟩ (0 : Fin 2) * 1000 ≤ (i 0).val ∧ (i 0).val < win2_4.index ⟨(i 0).val / 1000, hN⟩ (0 : Fin 2) * 1000 + 1000; rw [e8]; show (i 0).val / 1000 * 1000 ≤ (i 0).val ∧ (i 0).val < (i 0).val / 1000 * 1000 + 1000; omega
  | ⟨1, _⟩ => show win2_4.index ⟨(i 0).val / 1000, hN⟩ (1 : Fin 2) * 128 ≤ (i 1).val ∧ (i 1).val < win2_4.index ⟨(i 0).val / 1000, hN⟩ (1 : Fin 2) * 128 + 128; omega

/-- The output array after the region: the step. -/
theorem final2 (c : Dev nD) : (dat2 V c).arrAt 4 cfg2.N = G2 V c :=
  (dat2 V c).arrAt_eq_of_cover 4 (G2 V c) (fun t _ => flushed2 V c t) cover2

end Cert.KernelIdeal.Vals

end
-- ==== Proof.Region3.lean ====
/-
  The last aggregation, read as a value: whatever the buffers hold when the fourth kernel region is entered, it
  leaves its output array at  `a · h`, the whole 10000 × 10000 matrix `a` times the whole 10000 × 128 matrix `h`.

  The region walks ten bands of 1000 rows. At band `t` the body sees rows `1000 t … 1000 t + 999` of `a` and all of
  `h`, and writes back those rows of the product; a product's band is the product of the left factor's band, so each
  write-back is that band of ONE whole-matrix function, and the ten bands tile the rows.
-/
import proofs.«124982_g24721831756232_cont_sun_m_69_35_alg».proof.Proof.Gen.KernelIdeal.Frame
import proofs.«124982_g24721831756232_cont_sun_m_69_35_alg».proof.Proof.Payloads

set_option maxRecDepth 16384

noncomputable section

namespace Cert.KernelIdeal.Vals

open Idealize.ShloMosaic Idealize.ShloMosaic.TcCoe Idealize.ShloMosaic.ValueIdx Idealize.SL.Sem
open Idealize.ShloMosaic.Pipeline (Dat)
open Cert.KernelIdeal Cert.KernelIdeal.Gen RowOps

-- the buffer contents when the region is entered: a parameter, as in the generated frame
variable (V : (c : Dev nD) → (b : Ref sig .tc) → Buf (Elt Ideal) ((c : Thread nD τ).loc b))

/-- The region's two input arrays at their literal types. -/
abbrev a3 (c : Dev nD) : Vec Ideal S10000x10000 .bf16 := V c main_v7_1
abbrev h3 (c : Dev nD) : Vec Ideal S10000x128 .bf16 := V c main_v8

/-- What the region leaves in its output array. -/
abbrev G3 (c : Dev nD) : Vec Ideal S10000x128 .f32 := rowsMul (n := 10000) (K := 10000) (C := 128) (a3 V c) (h3 V c)

/-- The printed index maps over the ten points: the band index is the point, everything else block 0. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Band `t` lies inside the 10000 rows. -/
theorem band_le3 (t : Fin cfg3.N) : t.val * 1000 + 1000 ≤ 10000 := by
  have h : t.val < 10 := Nat.lt_of_lt_of_eq t.isLt N_3
  omega

/-- Window 0's block at point `t` is band `t` of `a`. -/
theorem blk3_a (c : Dev nD) (t : Fin cfg3.N) :
    iblk3 V c 0 t = band (n := 10000) (K := 10000) 1000 (t.val * 1000) (band_le3 t) (a3 V c) := by
  obtain ⟨e0, e1, e2, e3, e4, e5⟩ := idx_facts3 t
  funext j
  show a3 V c (((cfg3.win 0).blk t).view.emb j) = band (n := 10000) (K := 10000) 1000 (t.val * 1000) (band_le3 t) (a3 V c) j
  refine congrArg (a3 V c) (funext fun a => Fin.ext ?_)
  have hj0 : (j 0).val < 1000 := (j 0).isLt
  have hj1 : (j 1).val < 10000 := (j 1).isLt
  match a with
  | ⟨0, _⟩ => show win3_0.index t (0 : Fin 2) * 1000 + 1 * (j 0).val = t.val * 1000 + (j 0).val; omega
  | ⟨1, _⟩ => show win3_0.index t (1 : Fin 2) * 10000 + 1 * (j 1).val = (j 1).val; omega

/-- Window 1's block at every point is all of `h`. -/
theorem blk3_h (c : Dev nD) (t : Fin cfg3.N) : iblk3 V c 1 t = h3 V c := by
  obtain ⟨e0, e1, e2, e3, e4, e5⟩ := idx_facts3 t
  funext j
  show h3 V c (((cfg3.win 1).blk t).view.emb j) = h3 V c j
  refine congrArg (h3 V c) (funext fun a => Fin.ext ?_)
  match a with
  | ⟨0, _⟩ => show win3_1.index t (0 : Fin 2) * 10000 + 1 * (j 0).val = (j 0).val; omega
  | ⟨1, _⟩ => show win3_1.index t (1 : Fin 2) * 128 + 1 * (j 1).val = (j 1).val; omega

/-- Any whole output array read through window 2's block at point `t` is its band `t`. -/
theorem read3_out (t : Fin cfg3.N) (G : Vec Ideal S10000x128 .f32) :
    ((cfg3.win 2).blk t).view.read (Elt Ideal) G = band (n := 10000) (K := 128) 1000 (t.val * 1000) (band_le3 t) G := by
  obtain ⟨e0, e1, e2, e3, e4, e5⟩ := idx_facts3 t
  funext j
  show G (((cfg3.win 2).blk t).view.emb j) = band (n := 10000) (K := 128) 1000 (t.val * 1000) (band_le3 t) G j
  refine congrArg G (funext fun a => Fin.ext ?_)
  match a with
  | ⟨0, _⟩ => show win3_2.index t (0 : Fin 2) * 1000 + 1 * (j 0).val = t.val * 1000 + (j 0).val; omega
  | ⟨1, _⟩ => show win3_2.index t (1 : Fin 2) * 128 + 1 * (j 1).val = (j 1).val; omega

/-- What point `t` writes back is band `t` of `G3`. -/
theorem flushed3 (c : Dev nD) (t : Fin cfg3.N) :
    (dat3 V c).flushed 2 t = ((cfg3.win 2).blk t).view.read (Elt Ideal) (G3 V c) := by
  show (cfg3.win 2).cut (grid3.coords t) ((dat3 V c).after 2 t) = _
  rw [after3_2]
  unfold out3_2
  rw [View.canon_unit_zero zero_off2]
  simp only [View.ld_unit_zero (S := S1000x10000) zero_off2, View.ld_unit_zero (S := S10000x128) zero_off2]
  rw [pay3, blk3_a, blk3_h, read3_out]
  exact (rowsMul_band 1000 (t.val * 1000) (band_le3 t) (a3 V c) (h3 V c)).symm

/-- An index of the output array is in point `t`'s band iff each coordinate is in the band's range. -/
theorem mem_blk3 (t : Fin cfg3.N) (i : S10000x128.Idx) :
    i ∈ ((cfg3.win 2).blk t).view.set ↔ ∀ a : Fin 2, win3_2.index t a * S1000x128.size a ≤ (i a).val ∧ (i a).val < win3_2.index t a * S1000x128.size a + S1000x128.size a := by
  show i ∈ ((View.whole main_v9).slice (win3_2.rect t)).set ↔ _
  rw [View.set_slice_whole, Rect.mem_set_unit]
  exact Iff.rfl

/-- Every row is in some band: row `r` in band `r / 1000`. -/
theorem cover3 (i : S10000x128.Idx) : ∃ t : Fin cfg3.N, (cfg3.win 2).flush t = true ∧ i ∈ ((cfg3.win 2).blk t).view.set := by
  have hi0 : (i 0).val < 10000 := (i 0).isLt
  have hi1 : (i 1).val < 128 := (i 1).isLt
  have hN : (i 0).val / 1000 < cfg3.N := by rw [show cfg3.N = 10 from N_3]; omega
  obtain ⟨e0, e1, e2, e3, e4, e5⟩ := idx_facts3 ⟨(i 0).val / 1000, hN⟩
  refine ⟨⟨(i 0).val / 1000, hN⟩, flush3_2 _, ?_⟩
  rw [mem_blk3]
  intro a
  match a with
  | ⟨0, _⟩ => show win3_2.index ⟨(i 0).val / 1000, hN⟩ (0 : Fin 2) * 1000 ≤ (i 0).val ∧ (i 0).val < win3_2.index ⟨(i 0).val / 1000, hN⟩ (0 : Fin 2) * 1000 + 1000; rw [e4]; show (i 0).val / 1000 * 1000 ≤ (i 0).val ∧ (i 0).val < (i 0).val / 1000 * 1000 + 1000; omega
  | ⟨1, _⟩ => show win3_2.index ⟨(i 0).val / 1000, hN⟩ (1 : Fin 2) * 128 ≤ (i 1).val ∧ (i 1).val < win3_2.index ⟨(i 0).val / 1000, hN⟩ (1 : Fin 2) * 128 + 128; omega

/-- The output array after the region: the whole product. -/
theorem final3 (c : Dev nD) : (dat3 V c).arrAt 2 cfg3.N = G3 V c :=
  (dat3 V c).arrAt_eq_of_cover 2 (G3 V c) (fun t _ => flushed3 V c t) cover3

end Cert.KernelIdeal.Vals

end
-- ==== Proof.Chain.lean ====
/-
  The kernel program's result, read off the boundaries between its segments.

  Before the first region the host reshapes each bias vector to a `1 × 128` row and narrows each weight matrix's float
  format (the identity on extended reals). Then the four regions run in order; each leaves its output array at a
  function of what it found (`final0 … final3`) and every other buffer as it was. Reading the last boundary's contents
  at the result buffer back through these, one boundary at a time, gives `Gcn.layers` of the launch memory's arguments.
-/
import proofs.«124982_g24721831756232_cont_sun_m_69_35_alg».proof.Proof.Region0
import proofs.«124982_g24721831756232_cont_sun_m_69_35_alg».proof.Proof.Region1
import proofs.«124982_g24721831756232_cont_sun_m_69_35_alg».proof.Proof.Region2
import proofs.«124982_g24721831756232_cont_sun_m_69_35_alg».proof.Proof.Region3
import Idealize.ShloMosaic.Lib.StableHlo.Run

set_option maxRecDepth 16384

noncomputable section

namespace Cert.KernelIdeal.Vals

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen RowOps

variable (m : (ℓ : Loc nD τ sig) → Buf (Elt Ideal) ℓ) (ρ : Dev nD → PrngReg)

/-! ## The launch memory's argument arrays, at their literal types -/

abbrev argX (c : Dev nD) : Vec Ideal S10000x128 .f32 := m ((c : Thread nD τ).loc main_arg0)
abbrev argA (c : Dev nD) : Vec Ideal S10000x10000 .f32 := m ((c : Thread nD τ).loc main_arg1)
abbrev argW1 (c : Dev nD) : Vec Ideal S128x128 .f32 := m ((c : Thread nD τ).loc main_arg2)
abbrev argB1 (c : Dev nD) : Vec Ideal S128 .f32 := m ((c : Thread nD τ).loc main_arg3)
abbrev argW2 (c : Dev nD) : Vec Ideal S128x128 .f32 := m ((c : Thread nD τ).loc main_arg4)
abbrev argB2 (c : Dev nD) : Vec Ideal S128 .f32 := m ((c : Thread nD τ).loc main_arg5)
abbrev argW3 (c : Dev nD) : Vec Ideal S128x128 .f32 := m ((c : Thread nD τ).loc main_arg6)
abbrev argB3 (c : Dev nD) : Vec Ideal S128 .f32 := m ((c : Thread nD τ).loc main_arg7)

/-! ## After the host stretch (the first region's entry) -/

/-- A vector of length 128 reshaped to `1 × 128` is that vector as a row. -/
theorem reshape_row (b : Vec Ideal S128 .f32) : shapeCast S1x128 b shapeCasts_S128_S1x128 = rowOf (C := 128) b := by
  funext j
  show shapeCast (⟨1 + 1, Matrix.vecCons 1 ![128]⟩ : Shape) b shapeCasts_S128_S1x128 j = b (ix1 (n := 128) (j 1))
  rw [shapeCast_addUnit_apply (d := ![128]) b shapeCasts_S128_S1x128 j]
  refine congrArg b (funext fun a => ?_)
  match a with
  | ⟨0, _⟩ => rfl

theorem V1_x (c : Dev nD) : V1 m ρ c main_arg0 = argX m c := by
  show StableHlo.after hostOps0 (W0 m ρ c) (Proc.devRef .tc main_arg0) = _
  after_results
theorem V1_a (c : Dev nD) : V1 m ρ c main_arg1 = argA m c := by
  show StableHlo.after hostOps0 (W0 m ρ c) (Proc.devRef .tc main_arg1) = _
  after_results
theorem V1_w1 (c : Dev nD) : V1 m ρ c main_v3 = argW1 m c := by
  show StableHlo.after hostOps0 (W0 m ρ c) (Proc.devRef .tc main_v3) = _
  after_results
  rfl
theorem V1_w2 (c : Dev nD) : V1 m ρ c main_v4 = argW2 m c := by
  show StableHlo.after hostOps0 (W0 m ρ c) (Proc.devRef .tc main_v4) = _
  after_results
  rfl
theorem V1_w3 (c : Dev nD) : V1 m ρ c main_v5 = argW3 m c := by
  show StableHlo.after hostOps0 (W0 m ρ c) (Proc.devRef .tc main_v5) = _
  after_results
  rfl
theorem V1_b1 (c : Dev nD) : V1 m ρ c main_v0 = rowOf (C := 128) (argB1 m c) := by
  show StableHlo.after hostOps0 (W0 m ρ c) (Proc.devRef .tc main_v0) = _
  after_results
  exact reshape_row (argB1 m c)
theorem V1_b2 (c : Dev nD) : V1 m ρ c main_v1 = rowOf (C := 128) (argB2 m c) := by
  show StableHlo.after hostOps0 (W0 m ρ c) (Proc.devRef .tc main_v1) = _
  after_results
  exact reshape_row (argB2 m c)
theorem V1_b3 (c : Dev nD) : V1 m ρ c main_v2 = rowOf (C := 128) (argB3 m c) := by
  show StableHlo.after hostOps0 (W0 m ρ c) (Proc.devRef .tc main_v2) = _
  after_results
  exact reshape_row (argB3 m c)

/-! ## After the first region -/

/-- The first dense map's array. -/
theorem V2_p1 (c : Dev nD) : V2 m ρ c main_v6 = Gcn.p1 (argX m c) (argW1 m c) (rowOf (C := 128) (argB1 m c)) := by
  refine ((W2_arr m ρ c 3).trans (final0 (V1 m ρ) c)).trans ?_
  show Gcn.p1 (V1 m ρ c main_arg0) (V1 m ρ c main_v3) (V1 m ρ c main_v0) = _
  rw [V1_x, V1_w1, V1_b1]
theorem V2_a (c : Dev nD) : V2 m ρ c main_arg1 = argA m c :=
  (W2_of_ne m ρ c main_arg1 (by decide)).trans (V1_a m ρ c)
theorem V2_w2 (c : Dev nD) : V2 m ρ c main_v4 = argW2 m c :=
  (W2_of_ne m ρ c main_v4 (by decide)).trans (V1_w2 m ρ c)
theorem V2_b2 (c : Dev nD) : V2 m ρ c main_v1 = rowOf (C := 128) (argB2 m c) :=
  (W2_of_ne m ρ c main_v1 (by decide)).trans (V1_b2 m ρ c)
theorem V2_w3 (c : Dev nD) : V2 m ρ c main_v5 = argW3 m c :=
  (W2_of_ne m ρ c main_v5 (by decide)).trans (V1_w3 m ρ c)
theorem V2_b3 (c : Dev nD) : V2 m ρ c main_v2 = rowOf (C := 128) (argB3 m c) :=
  (W2_of_ne m ρ c main_v2 (by decide)).trans (V1_b3 m ρ c)

/-! ## After the second region -/

/-- The second layer's array. -/
theorem V3_h2 (c : Dev nD) : V3 m ρ c main_v7_0
    = Gcn.step (argA m c) (Gcn.p1 (argX m c) (argW1 m c) (rowOf (C := 128) (argB1 m c))) (argW2 m c) (rowOf (C := 128) (argB2 m c)) := by
  refine ((W3_arr m ρ c 4).trans (final1_4 (V2 m ρ) c)).trans ?_
  show Gcn.step (V2 m ρ c main_arg1) (V2 m ρ c main_v6) (V2 m ρ c main_v4) (V2 m ρ c main_v1) = _
  rw [V2_a, V2_p1, V2_w2, V2_b2]
/-- The copy of the adjacency. -/
theorem V3_a (c : Dev nD) : V3 m ρ c main_v7_1 = argA m c :=
  ((W3_arr m ρ c 5).trans (final1_5 (V2 m ρ) c)).trans (V2_a m ρ c)
theorem V3_w3 (c : Dev nD) : V3 m ρ c main_v5 = argW3 m c :=
  (W3_of_ne m ρ c main_v5 (by decide)).trans (V2_w3 m ρ c)
theorem V3_b3 (c : Dev nD) : V3 m ρ c main_v2 = rowOf (C := 128) (argB3 m c) :=
  (W3_of_ne m ρ c main_v2 (by decide)).trans (V2_b3 m ρ c)

/-! ## After the third region -/

/-- The third layer's array. -/
theorem V4_h3 (c : Dev nD) : V4 m ρ c main_v8
    = Gcn.step (argA m c) (Gcn.step (argA m c) (Gcn.p1 (argX m c) (argW1 m c) (rowOf (C := 128) (argB1 m c))) (argW2 m c) (rowOf (C := 128) (argB2 m c)))
        (argW3 m c) (rowOf (C := 128) (argB3 m c)) := by
  refine ((W4_arr m ρ c 4).trans (final2 (V3 m ρ) c)).trans ?_
  show Gcn.step (V3 m ρ c main_v7_1) (V3 m ρ c main_v7_0) (V3 m ρ c main_v5) (V3 m ρ c main_v2) = _
  rw [V3_a, V3_h2, V3_w3, V3_b3]
/-- The third region reads the adjacency copy and leaves it. -/
theorem V4_a (c : Dev nD) : V4 m ρ c main_v7_1 = argA m c :=
  ((W4_arr m ρ c 0).trans (((dat2 (V3 m ρ) c).arrAt_in 0 rfl _).trans (A_eq2 (V3 m ρ) c 0))).trans (V3_a m ρ c)

/-! ## After the last region: the result -/

/-- The result buffer at the last boundary holds the three layers of the launch memory's arguments. -/
theorem W5_result (c : Dev nD) : W5 m ρ c (Proc.devRef .tc main_v9)
    = Gcn.layers (argX m c) (argA m c) (argW1 m c) (rowOf (C := 128) (argB1 m c)) (argW2 m c) (rowOf (C := 128) (argB2 m c))
        (argW3 m c) (rowOf (C := 128) (argB3 m c)) := by
  refine ((W5_arr m ρ c 2).trans (final3 (V4 m ρ) c)).trans ?_
  show rowsMul (n := 10000) (K := 10000) (C := 128) (V4 m ρ c main_v7_1) (V4 m ρ c main_v8) = _
  rw [V4_a, V4_h3]
  rfl

end Cert.KernelIdeal.Vals

end
-- ==== Proof.RefValue.lean ====
/-
  The reference computes the three layers: its result term, operation by operation at the ideal instance, is
  `Gcn.layers` of its arguments with each bias vector read as a row.

  Each host `dot_general` is the plain sum of products (`rowsMul`), each `broadcast` of a bias vector first to a
  `1 × 128` row and then down the rows adds that row to every row, and the maximum with the broadcast zero scalar
  is the positive part.
-/
import proofs.«124982_g24721831756232_cont_sun_m_69_35_alg».proof.Proof.Gen.ReferenceIdeal.Read
import proofs.«124982_g24721831756232_cont_sun_m_69_35_alg».proof.Proof.Layers

noncomputable section

namespace Cert.ReferenceIdeal.RefValue

open Idealize.ShloMosaic Idealize.ShloMosaic.ValueIdx Cert.ReferenceIdeal Cert.ReferenceIdeal.Gen Cert.ReferenceIdeal.Read RowOps

/-- The host's `[10000,128] × [128,128]` product is `rowsMul`. -/
theorem dg_small (l : FVec Ideal S10000x128 .f32) (r : FVec Ideal S128x128 .f32) :
    Host.dotGeneral dot_S10000x128_S128x128_S10000x128_1_0_0_1_n_n none l r = rowsMul (n := 10000) (K := 128) (C := 128) l r := by
  simp only [Host.dotGeneral]
  exact dotGeneral_eq_rowsMul (R := 10000) (K := 128) (C := 128) dot_S10000x128_S128x128_S10000x128_1_0_0_1_n_n rfl rfl
    lhs_main_v0_0 lhs_main_v0_1 rhs_main_v0_0 rhs_main_v0_1 none .single l r

/-- The host's `[10000,10000] × [10000,128]` product is `rowsMul`. -/
theorem dg_big (l : FVec Ideal S10000x10000 .f32) (r : FVec Ideal S10000x128 .f32) :
    Host.dotGeneral dot_S10000x10000_S10000x128_S10000x128_1_0_0_1_n_n none l r = rowsMul (n := 10000) (K := 10000) (C := 128) l r := by
  simp only [Host.dotGeneral]
  exact dotGeneral_eq_rowsMul (R := 10000) (K := 10000) (C := 128) dot_S10000x10000_S10000x128_S10000x128_1_0_0_1_n_n rfl rfl
    lhs_main_v4_0 lhs_main_v4_1 rhs_main_v4_0 rhs_main_v4_1 none .single l r

/-- A bias vector broadcast to a row and then down the rows, added: the row added to every row. -/
theorem bias_add (y : FVec Ideal S10000x128 .f32) (b : FVec Ideal S128 .f32) :
    addf y (broadcastInDim S10000x128 ![0, 1] bcast_S1x128_S10000x128_0_1 (broadcastInDim S1x128 ![1] bcast_S128_S1x128_1 b))
      = addRow (n := 10000) (C := 128) y (rowOf (C := 128) b) := by
  funext i
  show y i + val_main_v2 (F := Ideal) b i = _
  rw [val_main_v2_apply, val_main_v1_apply]
  show y i + b (idx_main_v1 (idx_main_v2 i)) = y i + b (ix1 (n := 128) ((ix2 (n0 := 1) (n1 := 128) 0 (i 1)) 1))
  refine congrArg (fun z => y i + b z) (funext fun a => ?_)
  match a with
  | ⟨0, _⟩ => rfl

/-- The maximum with the broadcast zero scalar is the positive part. -/
theorem relu_host (y : FVec Ideal S10000x128 .f32) :
    maximumf y (broadcastInDim S10000x128 ![] bcast_S_S10000x128 (constant (F := Ideal) S_ .f32 0x00000000#32)) = relu (n := 10000) (C := 128) y := by
  funext i
  show max (y i) (val_main_call0_v0 (F := Ideal) i) = max (y i) 0
  rw [val_main_call0_v0_apply, val_main_call0_cst_apply]
  show max (y i) (Ideal.ofBits .f32 0x00000000#32) = max (y i) 0
  rw [Ideal.ofBits_zero_f32]

/-- The first dense map: the stage before the first aggregation. -/
theorem v3_eq (x0 : FVec Ideal S10000x128 .f32) (x2 : FVec Ideal S128x128 .f32) (x3 : FVec Ideal S128 .f32) :
    val_main_v3 (F := Ideal) x0 x2 x3 = Gcn.p1 x0 x2 (rowOf (C := 128) x3) := by
  unfold val_main_v3 val_main_v2 val_main_v1 val_main_v0 Gcn.p1
  rw [dg_small, bias_add]

/-- The second layer's stage, over whatever the first stage is (`h`). -/
theorem v9_eq (x0 : FVec Ideal S10000x128 .f32) (x1 : FVec Ideal S10000x10000 .f32) (x2 : FVec Ideal S128x128 .f32) (x3 : FVec Ideal S128 .f32)
    (x4 : FVec Ideal S128x128 .f32) (x5 : FVec Ideal S128 .f32) (h : FVec Ideal S10000x128 .f32) (hh : val_main_v3 (F := Ideal) x0 x2 x3 = h) :
    val_main_v9 (F := Ideal) x0 x1 x2 x3 x4 x5 = Gcn.step x1 h x4 (rowOf (C := 128) x5) := by
  unfold val_main_v9 val_main_v8 val_main_v7 val_main_v6 val_main_v5 val_main_call0_v0 val_main_call0_cst val_main_v4 Gcn.step
  rw [hh, dg_big, relu_host, dg_small, bias_add]

/-- The third layer's stage, over whatever the second stage is (`h`). -/
theorem v15_eq (x0 : FVec Ideal S10000x128 .f32) (x1 : FVec Ideal S10000x10000 .f32) (x2 : FVec Ideal S128x128 .f32) (x3 : FVec Ideal S128 .f32)
    (x4 : FVec Ideal S128x128 .f32) (x5 : FVec Ideal S128 .f32) (x6 : FVec Ideal S128x128 .f32) (x7 : FVec Ideal S128 .f32)
    (h : FVec Ideal S10000x128 .f32) (hh : val_main_v9 (F := Ideal) x0 x1 x2 x3 x4 x5 = h) :
    val_main_v15 (F := Ideal) x0 x1 x2 x3 x4 x5 x6 x7 = Gcn.step x1 h x6 (rowOf (C := 128) x7) := by
  unfold val_main_v15 val_main_v14 val_main_v13 val_main_v12 val_main_v11 val_main_call1_v0 val_main_call1_cst val_main_v10 Gcn.step
  rw [hh, dg_big, relu_host, dg_small, bias_add]

/-- The last aggregation, over whatever the third stage is (`h`). -/
theorem v16_eq (x0 : FVec Ideal S10000x128 .f32) (x1 : FVec Ideal S10000x10000 .f32) (x2 : FVec Ideal S128x128 .f32) (x3 : FVec Ideal S128 .f32)
    (x4 : FVec Ideal S128x128 .f32) (x5 : FVec Ideal S128 .f32) (x6 : FVec Ideal S128x128 .f32) (x7 : FVec Ideal S128 .f32)
    (h : FVec Ideal S10000x128 .f32) (hh : val_main_v15 (F := Ideal) x0 x1 x2 x3 x4 x5 x6 x7 = h) :
    val_main_v16 (F := Ideal) x0 x1 x2 x3 x4 x5 x6 x7 = rowsMul (n := 10000) (K := 10000) (C := 128) x1 h := by
  unfold val_main_v16
  rw [hh, dg_big]

/-- The reference's result term is the three layers of its arguments. -/
theorem result_eq (x0 : FVec Ideal S10000x128 .f32) (x1 : FVec Ideal S10000x10000 .f32) (x2 : FVec Ideal S128x128 .f32) (x3 : FVec Ideal S128 .f32)
    (x4 : FVec Ideal S128x128 .f32) (x5 : FVec Ideal S128 .f32) (x6 : FVec Ideal S128x128 .f32) (x7 : FVec Ideal S128 .f32) :
    val_main_v16 (F := Ideal) x0 x1 x2 x3 x4 x5 x6 x7
      = Gcn.layers x0 x1 x2 (rowOf (C := 128) x3) x4 (rowOf (C := 128) x5) x6 (rowOf (C := 128) x7) :=
  v16_eq x0 x1 x2 x3 x4 x5 x6 x7 _ (v15_eq x0 x1 x2 x3 x4 x5 x6 x7 _ (v9_eq x0 x1 x2 x3 x4 x5 _ (v3_eq x0 x2 x3)))

end Cert.ReferenceIdeal.RefValue

end
-- ==== Proof.lean ====
/-
  Three stacked dense graph-convolution layers on a 10000-node graph,

      out = a · (max (a · (max (a · (x·w₁ + b₁)) 0 · w₂ + b₂)) 0 · w₃ + b₃),

  computed by four row-banded kernel regions (the first dense map; then two aggregate-activate-map steps, the first of
  which also writes a copy of the adjacency `a` in a narrower float format; then the last aggregation), against the
  plain composition of whole-matrix products.

  On the extended reals a change of float format is the identity and the matrix unit's product into a zero
  accumulator is the plain sum of products, so each region's body computes, on a band of rows, exactly the rows of
  the corresponding whole-matrix stage; every stage is row-local in the operand that is banded, the bands tile the
  10000 rows, and the two programs therefore compute the same function of the arguments, sum for sum: no sum is
  regrouped, nothing is distributed or cancelled, and finiteness of the inputs is never used.

  The frames of the two kernel programs are the generated ones; the reference's frame is its run with the result
  dropped; the idealization rewrote nothing, so `preserves` is trivial.
-/
import proofs.«124982_g24721831756232_cont_sun_m_69_35_alg».proof.Defs
import proofs.«124982_g24721831756232_cont_sun_m_69_35_alg».proof.Proof.Gen.Kernel
import proofs.«124982_g24721831756232_cont_sun_m_69_35_alg».proof.Proof.Gen.Kernel.Skeleton
import proofs.«124982_g24721831756232_cont_sun_m_69_35_alg».proof.Proof.Gen.Kernel.Launch
import proofs.«124982_g24721831756232_cont_sun_m_69_35_alg».proof.Proof.Gen.Kernel.Points
import proofs.«124982_g24721831756232_cont_sun_m_69_35_alg».proof.Proof.Gen.Kernel.Frame
import proofs.«124982_g24721831756232_cont_sun_m_69_35_alg».proof.Proof.Gen.KernelIdeal
import proofs.«124982_g24721831756232_cont_sun_m_69_35_alg».proof.Proof.Gen.KernelIdeal.Skeleton
import proofs.«124982_g24721831756232_cont_sun_m_69_35_alg».proof.Proof.Gen.KernelIdeal.Launch
import proofs.«124982_g24721831756232_cont_sun_m_69_35_alg».proof.Proof.Gen.KernelIdeal.Points
import proofs.«124982_g24721831756232_cont_sun_m_69_35_alg».proof.Proof.Gen.KernelIdeal.Frame
import proofs.«124982_g24721831756232_cont_sun_m_69_35_alg».proof.Proof.Gen.ReferenceIdeal
import proofs.«124982_g24721831756232_cont_sun_m_69_35_alg».proof.Proof.Gen.Pre_finite_inputs
import proofs.«124982_g24721831756232_cont_sun_m_69_35_alg».proof.Proof.Gen.ReferenceIdeal.Run
import proofs.«124982_g24721831756232_cont_sun_m_69_35_alg».proof.Proof.Gen.ReferenceIdeal.Read
import proofs.«124982_g24721831756232_cont_sun_m_69_35_alg».proof.Proof.RunNamed
import proofs.«124982_g24721831756232_cont_sun_m_69_35_alg».proof.Proof.Chain
import proofs.«124982_g24721831756232_cont_sun_m_69_35_alg».proof.Proof.RefValue
import Idealize.ShloMosaic.Adequacy
import Idealize.ShloMosaic.Init

noncomputable section

namespace Cert.Proof

open Idealize.ShloMosaic Idealize.SL.Sem RowOps

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at the three layers of those
    arguments: the kernel program's by reading its last boundary back through the four regions, the reference's
    by reading its composed term operation by operation. -/
theorem algebraic : Cert.algebraic_KernelIdeal_ReferenceIdeal := by
  intro m ρ m' ρ' _ hagree
  refine ⟨fun c => Gcn.layers (Cert.KernelIdeal.Vals.argX m c) (Cert.KernelIdeal.Vals.argA m c)
      (Cert.KernelIdeal.Vals.argW1 m c) (rowOf (C := 128) (Cert.KernelIdeal.Vals.argB1 m c))
      (Cert.KernelIdeal.Vals.argW2 m c) (rowOf (C := 128) (Cert.KernelIdeal.Vals.argB2 m c))
      (Cert.KernelIdeal.Vals.argW3 m c) (rowOf (C := 128) (Cert.KernelIdeal.Vals.argB3 m c)), ?_, ?_⟩
  · exact (θ_run Cert.KernelIdeal.defs _ _).mono
      (fun r h c => ⟨(h c).1.trans (Cert.KernelIdeal.Vals.W5_result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v16_eq (F := Ideal) _ _ _ _ _ _ _ _).trans ?_
    refine (Cert.ReferenceIdeal.RefValue.result_eq _ _ _ _ _ _ _ _).trans ?_
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
